-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S16384x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.Spec.lean ====
/-
  What the fused add and root-mean-square normalisation computes, as functions of the whole argument arrays over
  the extended reals. Write h = x + r, entry by entry. Row a of h has the sum of squares
      S a = Σ_k h[a, k]²        (k over the 4096 columns),
  and the two results are
      h[a, b]                                            (the sum itself), and
      h[a, b] · rsqrt (S a · 2⁻¹² + ε) · w[b]            (the row brought to unit root-mean-square, then weighted),
  where 2⁻¹² = 1/4096 is the reciprocal of the row length and ε is the single-precision number nearest 10⁻⁶.
  One program multiplies the row sum by 2⁻¹², the other divides it by 4096. On the extended reals the two agree at
  every value of the sum, the infinite ones included, because the divisor is a nonzero real number: no finiteness
  of the inputs is used anywhere.
-/
import Idealize.ShloMosaic.PureOps.Ideal
import Idealize.ShloMosaic.PureOps.Ideal.Laws
import Idealize.ShloMosaic.Lib.ValueIdx

noncomputable section

namespace Cert.RmsSpec

open Idealize.ShloMosaic Idealize.ShloMosaic.ValueIdx

/-- The shape of x, r and both results: 16384 rows of 4096 columns. -/
abbrev Arr : Shape := ⟨2, ![16384, 4096]⟩
/-- The shape of the weight: one entry per column. -/
abbrev Row : Shape := ⟨1, ![4096]⟩

/-- The single-precision word 0x45800000 denotes 2¹² = 4096. -/
theorem word_4096 : Ideal.ofBits .f32 0x45800000#32 = ((4096 : ℝ) : EReal) := by
  simp [Ideal.ofBits, Ideal.ieee, -EReal.coe_mul]; norm_num

/-- The single-precision word 0x39800000 denotes 2⁻¹², which is 1/4096 exactly. -/
theorem word_inv4096 : Ideal.ofBits .f32 0x39800000#32 = ((1 / 4096 : ℝ) : EReal) := by
  simp [Ideal.ofBits, Ideal.ieee, -EReal.coe_mul]; norm_num

/-- Dividing by 4096 is multiplying by 1/4096, at every extended real (the divisor is real and nonzero). -/
theorem div_4096 (s : EReal) :
    Ideal.div s (Ideal.ofBits .f32 0x45800000#32) = s * Ideal.ofBits .f32 0x39800000#32 := by
  rw [word_4096, word_inv4096, Ideal.div_coe (by norm_num : (4096 : ℝ) ≠ 0)]

/-- S a: the sum over the columns of the squares of row a of x + r. -/
def sumSq (x r : Arr.Idx → EReal) (a : Fin 16384) : EReal :=
  ∑ k : Fin 4096, (x (ix2 a k) + r (ix2 a k)) * (x (ix2 a k) + r (ix2 a k))

/-- The second result: x + r. -/
def added (x r : Arr.Idx → EReal) : Arr.Idx → EReal := fun i => x i + r i

/-- The first result: each entry of x + r times the reciprocal root of its row's mean square plus ε, times its
    column's weight. -/
def normed (x r : Arr.Idx → EReal) (w : Row.Idx → EReal) : Arr.Idx → EReal := fun i =>
  (x i + r i) * Ideal.rsqrt (sumSq x r (i 0) * Ideal.ofBits .f32 0x39800000#32 + Ideal.ofBits .f32 0x358637BD#32)
    * w (ix1 (i 1))

end Cert.RmsSpec

end
-- ==== Proof.RefSide.lean ====
/-
  The reference, read at an index. Its first result is, entry [a, b]: (x + r)[a, b] times the reciprocal root of
  (the sum of squares of row a of x + r, started from zero, divided by 4096, plus ε), times w[b]; its second result
  is x + r. Starting the sum from zero changes nothing, and dividing by 4096 is multiplying by 2⁻¹² at every
  extended real, so these are the two functions of Spec.lean.
-/
import proofs.«431179_j2886218023291_3_alg».proof.Proof.Gen.ReferenceIdeal.Read
import proofs.«431179_j2886218023291_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.RmsSpec

/-- The entry of x + r that term k of row i's sum reads: row (i 0), column k. -/
theorem sum_term_idx (i : S16384x4096.Idx) (k : Fin 4096) :
    idx_main_v2 (idx_main_v3 (idx_main_v9 i)) k = ix2 (i 0) k := by
  funext a; match a with | ⟨0, _⟩ => rfl | ⟨1, _⟩ => rfl

/-- The entry of the weight that entry i of the result reads: its column. -/
theorem weight_idx (i : S16384x4096.Idx) : idx_main_v11 (idx_main_v12 i) = ix1 (i 1) := by
  funext a; match a with | ⟨0, _⟩ => rfl

/-- The reference's first result is the normalised, weighted sum. -/
theorem out_eq (x r : (⟨S16384x4096, .f32⟩ : BufTy).Contents (Elt Ideal)) (w : (⟨S4096, .f32⟩ : BufTy).Contents (Elt Ideal)) :
    val_main_v13 (F := Ideal) x r w = normed x r w := by
  funext i
  rw [val_main_v13_apply, val_main_v10_apply, val_main_v9_apply, val_main_v8_apply, val_main_v7_apply,
    val_main_v5_apply, val_main_v3_apply, val_main_v2_apply, val_main_cst_apply, val_main_v4_apply,
    val_main_cst_0_apply, val_main_v6_apply, val_main_cst_1_apply, val_main_v12_apply, val_main_v11_apply]
  simp only [val_main_v1_apply, val_main_v0_apply, Ideal.ofBits_def, Ideal.addf_def, Ideal.mulf_def,
    Ideal.hostDivf_def, Ideal.hostUnary_rsqrt_def, Ideal.ofBits_zero_f32, zero_add, div_4096,
    sum_term_idx, weight_idx]
  rfl

/-- The reference's second result is the sum. -/
theorem h_eq (x r : (⟨S16384x4096, .f32⟩ : BufTy).Contents (Elt Ideal)) :
    val_main_v0 (F := Ideal) x r = added x r := by
  funext i; rfl

end Cert.ReferenceIdeal.RefValue

end
-- ==== Proof.KernelBlock.lean ====
/-
  One grid point of the kernel, as mathematics. The body loads a 256 × 4096 block of x, the same block of r and
  the 1 × 4096 row of weights, and leaves two 256 × 4096 blocks: the sum P0 + P1, and, at entry [p, q],
      (P0 + P1)[p, q] · rsqrt ((Σ_k (P0 + P1)[p, k]²) · 2⁻¹² + ε) · P2[0, q].
  The sum over the lanes of a row is a finite sum over the 4096 columns of that row. When the blocks are the rows
  g p of whole arrays X, R (any map g from block rows to array rows) and the weight row is W, these entries are
  the entries [g p, q] of the two functions of Spec.lean.
-/
import proofs.«431179_j2886218023291_3_alg».proof.Proof.Gen.KernelIdeal.Value
import proofs.«431179_j2886218023291_3_alg».proof.Proof.Spec
import Idealize.ShloMosaic.PureOps.Ideal.Laws
import Idealize.ShloMosaic.Lib.ValueIdx

noncomputable section

namespace Cert.KernelIdeal.Block

open Cert.KernelIdeal Cert.KernelIdeal.Gen Cert.KernelIdeal.Value
open Idealize.ShloMosaic Idealize.ShloMosaic.ValueIdx Cert.RmsSpec

/-- A block is loaded and stored whole: from offset zero on both axes. -/
theorem offset_zero : (![0, 0] : Fin 2 → Nat) = fun _ => 0 := funext fun a => by fin_cases a <;> rfl

/-- The lane sum of a 256 × 4096 block at row j is the sum of that row's 4096 entries. -/
theorem lane_sum (v : FVec Ideal S256x4096 .f32) (hφ : FKind.Formats .f32)
    (hacc : (0x00000000#32 : BitVec 32) = FKind.add.neutral .f32 hφ) (j : S256.Idx) :
    multiReduction .add [1] S256 v 0x00000000#32 reduces_S256x4096_S256 hφ hacc j = ∑ k : Fin 4096, v (ix2 (j 0) k) := by
  refine (Ideal.multiReduction_add_single v 0x00000000#32 reduces_S256x4096_S256 hφ hacc j).trans ?_
  exact Finset.sum_congr rfl fun k _ => congrArg v (funext fun a => Fin.ext (by match a with | ⟨0, _⟩ => rfl | ⟨1, _⟩ => rfl))

/-- The first result's block, entry by entry: the sum of the two loaded blocks, times the reciprocal root of its
    row's sum of squares scaled by 2⁻¹² plus ε, times the weight of its column. -/
theorem normed_block (P0 P1 : Vec Ideal S256x4096 .f32) (P2 : Vec Ideal S1x4096 .f32) (y : S256x4096.Idx) :
    out0_3 P0 P1 P2 y
      = (P0 y + P1 y) * Ideal.rsqrt ((∑ k : Fin 4096, (P0 (ix2 (y 0) k) + P1 (ix2 (y 0) k)) * (P0 (ix2 (y 0) k) + P1 (ix2 (y 0) k)))
          * Ideal.ofBits .f32 0x39800000#32 + Ideal.ofBits .f32 0x358637BD#32) * P2 (ix2 0 (y 1)) := by
  unfold out0_3
  refine (canon3_eq _ _ _ y).trans ?_
  simp only [View.ld_unit_zero (S := S256x4096) offset_zero, View.ld_unit_zero (S := S1x4096) offset_zero]
  have i0 : ix3_0 y = y := funext fun a => by match a with | ⟨0, _⟩ => rfl | ⟨1, _⟩ => rfl
  have i1 : ix3_1 y = y := funext fun a => by match a with | ⟨0, _⟩ => rfl | ⟨1, _⟩ => rfl
  have i3 : ix3_3 y = ix2 0 (y 1) := funext fun a => by match a with | ⟨0, _⟩ => rfl | ⟨1, _⟩ => rfl
  have hs := lane_sum (mulf (addf P0 P1) (addf P0 P1)) (.inl rfl) rfl (ix3_2 y)
  show (P0 (ix3_0 y) + P1 (ix3_1 y)) * Ideal.rsqrt ((multiReduction (F := Ideal) .add [1] S256 (mulf (addf P0 P1) (addf P0 P1)) 0x00000000#32 reduces_S256x4096_S256 (.inl rfl) rfl) (ix3_2 y) * Ideal.ofBits .f32 0x39800000#32 + Ideal.ofBits .f32 0x358637BD#32) * P2 (ix3_3 y) = _
  rw [i0, i1, i3]
  exact congrArg (fun s => (P0 y + P1 y) * Ideal.rsqrt (s * Ideal.ofBits .f32 0x39800000#32 + Ideal.ofBits .f32 0x358637BD#32) * P2 (ix2 0 (y 1))) hs

/-- The second result's block is the sum of the two loaded blocks. -/
theorem added_block (P0 P1 : Vec Ideal S256x4096 .f32) (P2 : Vec Ideal S1x4096 .f32) (y : S256x4096.Idx) :
    out0_4 P0 P1 P2 y = P0 y + P1 y := by
  unfold out0_4
  rw [View.canon_unit_zero offset_zero]
  simp only [View.ld_unit_zero (S := S256x4096) offset_zero]
  rfl

/-- Blocks cut from whole arrays: if block row p is array row g p, the first result's block at [p, q] is the
    normalised, weighted sum at [g p, q] — the row's sum of squares is over the same 4096 entries. -/
theorem normed_block_of_rows (X R : Arr.Idx → EReal) (W : Row.Idx → EReal) (g : Fin 256 → Fin 16384) (j : S256x4096.Idx) :
    out0_3 (F := Ideal) (fun y => X (ix2 (g (y 0)) (y 1))) (fun y => R (ix2 (g (y 0)) (y 1))) (fun y => W (ix1 (y 1))) j
      = normed X R W (ix2 (g (j 0)) (j 1)) :=
  (normed_block _ _ _ j).trans rfl

/-- The same for the second result: the block at [p, q] is the sum at [g p, q]. -/
theorem added_block_of_rows (X R : Arr.Idx → EReal) (W : Row.Idx → EReal) (g : Fin 256 → Fin 16384) (j : S256x4096.Idx) :
    out0_4 (F := Ideal) (fun y => X (ix2 (g (y 0)) (y 1))) (fun y => R (ix2 (g (y 0)) (y 1))) (fun y => W (ix1 (y 1))) j
      = added X R (ix2 (g (j 0)) (j 1)) :=
  (added_block _ _ _ j).trans rfl

end Cert.KernelIdeal.Block

end
-- ==== Proof.KernelArray.lean ====
/-
  From the 64 grid points to the whole arrays. Point t works on rows 256·t, …, 256·t + 255: its blocks of x, r and
  of both results are those rows, all 4096 columns, and its weight block is the whole weight vector laid out as one
  row. So what point t writes back is rows 256·t … 256·t + 255 of the two functions of Spec.lean, by the per-point
  reading of KernelBlock.lean; the 64 row bands cover all 16384 rows (row a lies in band a / 256); hence after the run
  each result array is its function of the arrays the program was launched with.
-/
import proofs.«431179_j2886218023291_3_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.RmsSpec
open Idealize.ShloMosaic.Pipeline (Dat)

variable (m : (ℓ : Loc nD τ sig) → Buf (Elt Ideal) ℓ) (ρ : Dev nD → PrngReg)

/-- The block index maps at every grid point: x, r and both results move down one block of rows per point and stay
    in the one block of columns; the weight stays at its one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's blocks is row 256·t + p of the arrays. -/
def rowOf (t : Fin cfg0.N) (p : Fin 256) : Fin 16384 :=
  ⟨t.val * 256 + p.val, by have ht : t.val < 64 := t.isLt; have hp := p.isLt; omega⟩

/-! ## The input blocks -/

/-- The weight row the region finds is the weight vector laid out as one row of 4096. -/
theorem weight_row (c : Dev nD) :
    (V m c main_v0 : S1x4096.Idx → EReal) = shapeCast S1x4096 (m ((c : Thread nD τ).loc main_arg2)) shapeCasts_S4096_S1x4096 := by
  dsimp only [V, hostOps0]; after_results; rfl

/-- Its entry in column q is the weight of column q. -/
theorem weight_row_apply (c : Dev nD) (y : S1x4096.Idx) :
    (V m c main_v0 : S1x4096.Idx → EReal) y = m ((c : Thread nD τ).loc main_arg2) (ix1 (y 1)) := by
  rw [weight_row]
  have hy0 : (y 0).val < 1 := (y 0).isLt
  exact shapeCast_apply _ _ y (ix1 (y 1)) (by
    rw [Shape.rowMajor_val_one, Shape.rowMajor_val_two]; show (y 1).val = (y 0).val * 4096 + (y 1).val; omega)

/-- Point t's block of x: rows 256·t + p, every column. -/
theorem x_block (c : Dev nD) (t : Fin cfg0.N) :
    iblk m c 0 t = fun y => m ((c : Thread nD τ).loc main_arg0) (ix2 (rowOf t (y 0)) (y 1)) := by
  obtain ⟨e0, e1, -⟩ := block_indices t
  funext y
  show V m c main_arg0 (((cfg0.win 0).blk t).view.emb y) = _
  rw [V_main_arg0]
  refine congrArg (m ((c : Thread nD τ).loc main_arg0)) (funext fun a => Fin.ext ?_)
  match a with
  | ⟨0, _⟩ => show win0_0.index t (0 : Fin 2) * 256 + 1 * (y 0).val = t.val * 256 + (y 0).val; omega
  | ⟨1, _⟩ => show win0_0.index t (1 : Fin 2) * 4096 + 1 * (y 1).val = (y 1).val; omega

/-- Point t's block of r: the same rows. -/
theorem r_block (c : Dev nD) (t : Fin cfg0.N) :
    iblk m c 1 t = fun y => m ((c : Thread nD τ).loc main_arg1) (ix2 (rowOf t (y 0)) (y 1)) := by
  obtain ⟨-, -, e0, e1, -⟩ := block_indices t
  funext y
  show V m c main_arg1 (((cfg0.win 1).blk t).view.emb y) = _
  rw [V_main_arg1]
  refine congrArg (m ((c : Thread nD τ).loc main_arg1)) (funext fun a => Fin.ext ?_)
  match a with
  | ⟨0, _⟩ => show win0_1.index t (0 : Fin 2) * 256 + 1 * (y 0).val = t.val * 256 + (y 0).val; omega
  | ⟨1, _⟩ => show win0_1.index t (1 : Fin 2) * 4096 + 1 * (y 1).val = (y 1).val; omega

/-- Every point's weight block is the whole weight vector, read by column. -/
theorem w_block (c : Dev nD) (t : Fin cfg0.N) :
    iblk m c 2 t = fun y => m ((c : Thread nD τ).loc main_arg2) (ix1 (y 1)) := by
  obtain ⟨-, -, -, -, e0, e1, -⟩ := block_indices t
  funext y
  show (V m c main_v0 : S1x4096.Idx → EReal) (((cfg0.win 2).blk t).view.emb y) = _
  rw [weight_row_apply]
  refine congrArg (m ((c : Thread nD τ).loc main_arg2)) (funext fun a => Fin.ext ?_)
  match a with
  | ⟨0, _⟩ => show win0_2.index t (1 : Fin 2) * 4096 + 1 * (y 1).val = (y 1).val; omega

/-! ## What each point writes back -/

/-- Point t writes back, to the first result, rows 256·t … 256·t + 255 of the normalised, weighted sum. -/
theorem flushed_normed (c : Dev nD) (t : Fin cfg0.N) :
    (dats m 0 c).flushed 3 t = ((cfg0.win 3).blk t).view.read (Elt Ideal)
      (normed (m ((c : Thread nD τ).loc main_arg0)) (m ((c : Thread nD τ).loc main_arg1)) (m ((c : Thread nD τ).loc main_arg2))) := by
  rw [flushed3, x_block, r_block, w_block]
  obtain ⟨-, -, -, -, -, -, e0, e1, -⟩ := block_indices t
  funext j
  show out0_3 (F := Ideal) _ _ _ j = normed _ _ _ (((cfg0.win 3).blk t).view.emb j)
  refine (normed_block_of_rows _ _ _ (rowOf t) j).trans (congrArg (normed _ _ _) (funext fun a => Fin.ext ?_))
  match a with
  | ⟨0, _⟩ => show t.val * 256 + (j 0).val = win0_3.index t (0 : Fin 2) * 256 + 1 * (j 0).val; omega
  | ⟨1, _⟩ => show (j 1).val = win0_3.index t (1 : Fin 2) * 4096 + 1 * (j 1).val; omega

/-- Point t writes back, to the second result, the same rows of the sum. -/
theorem flushed_added (c : Dev nD) (t : Fin cfg0.N) :
    (dats m 0 c).flushed 4 t = ((cfg0.win 4).blk t).view.read (Elt Ideal)
      (added (m ((c : Thread nD τ).loc main_arg0)) (m ((c : Thread nD τ).loc main_arg1))) := by
  rw [flushed4, x_block, r_block, w_block]
  obtain ⟨-, -, -, -, -, -, -, -, e0, e1⟩ := block_indices t
  funext j
  show out0_4 (F := Ideal) _ _ _ j = added _ _ (((cfg0.win 4).blk t).view.emb j)
  refine (added_block_of_rows _ _ _ (rowOf t) j).trans (congrArg (added _ _) (funext fun a => Fin.ext ?_))
  match a with
  | ⟨0, _⟩ => show t.val * 256 + (j 0).val = win0_4.index t (0 : Fin 2) * 256 + 1 * (j 0).val; omega
  | ⟨1, _⟩ => show (j 1).val = win0_4.index t (1 : Fin 2) * 4096 + 1 * (j 1).val; omega

/-! ## The row bands cover the arrays -/

/-- An index lies in point t's block of the first result iff each coordinate lies in the block's range. -/
theorem mem_band3 (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v1_0).slice (win0_3.rect t)).set ↔ _
  rw [View.set_slice_whole, Rect.mem_set_unit]
  exact Iff.rfl

/-- The same for the second result. -/
theorem mem_band4 (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v1_1).slice (win0_4.rect t)).set ↔ _
  rw [View.set_slice_whole, Rect.mem_set_unit]
  exact Iff.rfl

/-- Every entry of the first result is written by the point whose band holds its row: point (row / 256). -/
theorem cover3 (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  let t : Fin cfg0.N := ⟨(i 0).val / 256, by show (i 0).val / 256 < 64; omega⟩
  have ht : t.val = (i 0).val / 256 := rfl
  obtain ⟨-, -, -, -, -, -, e0, e1, -⟩ := block_indices t
  refine ⟨t, flush0_3 t, ?_⟩
  rw [mem_band3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The same for the second result. -/
theorem cover4 (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  let t : Fin cfg0.N := ⟨(i 0).val / 256, by show (i 0).val / 256 < 64; omega⟩
  have ht : t.val = (i 0).val / 256 := rfl
  obtain ⟨-, -, -, -, -, -, -, -, e0, e1⟩ := block_indices t
  refine ⟨t, flush0_4 t, ?_⟩
  rw [mem_band4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-! ## The arrays after the run -/

/-- After the run the first result is the normalised, weighted sum of the launch arrays. -/
theorem final_normed (c : Dev nD) :
    (dats m 0 c).arrAt 3 cfg0.N
      = normed (m ((c : Thread nD τ).loc main_arg0)) (m ((c : Thread nD τ).loc main_arg1)) (m ((c : Thread nD τ).loc main_arg2)) :=
  (dats m 0 c).arrAt_eq_of_cover 3 _ (fun t _ => flushed_normed m c t) cover3

/-- After the run the second result is the sum of the launch arrays. -/
theorem final_added (c : Dev nD) :
    (dats m 0 c).arrAt 4 cfg0.N
      = added (m ((c : Thread nD τ).loc main_arg0)) (m ((c : Thread nD τ).loc main_arg1)) :=
  (dats m 0 c).arrAt_eq_of_cover 4 _ (fun t _ => flushed_added m c t) cover4

/-- Every weakly fair execution of the kernel program ends with the two results at their functions of the launch
    arrays, the arguments unchanged. -/
theorem run : θ_run defs (onTc (τ := τ) (main (F := Ideal))) ⟨m, fun _ => 0, ρ⟩ fun r => ∀ c : Dev nD,
      r.2.mem ((c : Thread nD τ).loc main_v1_0)
          = normed (m ((c : Thread nD τ).loc main_arg0)) (m ((c : Thread nD τ).loc main_arg1)) (m ((c : Thread nD τ).loc main_arg2))
      ∧ r.2.mem ((c : Thread nD τ).loc main_v1_1)
          = added (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_normed m c), (h c).2.1.trans (final_added m c), (h c).2.2⟩)
    (run_blocks m ρ)

end Cert.KernelIdeal.Whole

end
-- ==== Proof.lean ====
/-
  A fused add and root-mean-square normalisation: from x, r (16384 × 4096) and a weight w (4096) the two programs
  return  out[a, b] = h[a, b] · rsqrt (mean_k h[a, k]² + ε) · w[b]  and  h = x + r.

  The kernel walks the rows in 64 bands of 256; on each band it forms h, sums h² along each row, multiplies the sum
  by 2⁻¹² = 1/4096, adds ε, takes the reciprocal root, and scales h by it and by the weight row. The reference forms
  the same h over the whole array, takes each row's sum of squares, divides it by 4096, adds the same ε, takes the
  reciprocal root and multiplies by h and by w broadcast down the rows.

  Over the extended reals both results are the functions `normed` and `added` of Spec.lean:
    • the kernel's, because what each band writes back is those rows of the two functions (KernelBlock.lean: one
      band as mathematics; KernelArray.lean: the bands cover every row), and
    • the reference's, entry by entry (RefSide.lean), where a sum started from the zero word is the sum, and
      dividing by 4096 equals multiplying by 1/4096 at every extended real, finite or not.
  So the two programs agree on all inputs; the finiteness of the inputs is not needed. The idealised kernel is the
  kernel's own text read over the extended reals (no operation was rewritten), so that conjunct is trivial. Each
  program terminates without fault and leaves its arguments unchanged: for the two kernel programs this is the
  frame of the blocked launch, for the reference it is its straight-line run.
-/
import proofs.«431179_j2886218023291_3_alg».proof.Defs
import proofs.«431179_j2886218023291_3_alg».proof.Proof.Gen.Kernel
import proofs.«431179_j2886218023291_3_alg».proof.Proof.Gen.Kernel.Skeleton
import proofs.«431179_j2886218023291_3_alg».proof.Proof.Gen.Kernel.Launch
import proofs.«431179_j2886218023291_3_alg».proof.Proof.Gen.Kernel.Points
import proofs.«431179_j2886218023291_3_alg».proof.Proof.Gen.Kernel.Frame
import proofs.«431179_j2886218023291_3_alg».proof.Proof.Gen.KernelIdeal
import proofs.«431179_j2886218023291_3_alg».proof.Proof.Gen.KernelIdeal.Skeleton
import proofs.«431179_j2886218023291_3_alg».proof.Proof.Gen.KernelIdeal.Launch
import proofs.«431179_j2886218023291_3_alg».proof.Proof.Gen.KernelIdeal.Points
import proofs.«431179_j2886218023291_3_alg».proof.Proof.Gen.KernelIdeal.Frame
import proofs.«431179_j2886218023291_3_alg».proof.Proof.Gen.ReferenceIdeal
import proofs.«431179_j2886218023291_3_alg».proof.Proof.Gen.Pre_finite_inputs
import proofs.«431179_j2886218023291_3_alg».proof.Proof.Gen.KernelIdeal.Value
import proofs.«431179_j2886218023291_3_alg».proof.Proof.Gen.ReferenceIdeal.Run
import proofs.«431179_j2886218023291_3_alg».proof.Proof.Gen.ReferenceIdeal.Read
import proofs.«431179_j2886218023291_3_alg».proof.Proof.Spec
import proofs.«431179_j2886218023291_3_alg».proof.Proof.RefSide
import proofs.«431179_j2886218023291_3_alg».proof.Proof.KernelBlock
import proofs.«431179_j2886218023291_3_alg».proof.Proof.KernelArray
import Idealize.ShloMosaic.Adequacy
import Idealize.ShloMosaic.Init

noncomputable section

namespace Cert.Proof

open Idealize.ShloMosaic Idealize.ShloMosaic.TcCoe Idealize.SL.Sem Cert.RmsSpec

/-- The kernel as printed terminates, faults nowhere and leaves x, r and w as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of whole-array operations: it runs to its end, and its arguments are never
    written. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten on the way to the extended reals. -/
theorem preserves : Cert.preserves_Kernel_KernelIdeal := trivial

/-- From memories that agree on x, r and w, the kernel ends with its two results at `normed` and `added` of them, and
    the reference ends with its two results at the same two functions. -/
theorem algebraic : Cert.algebraic_KernelIdeal_ReferenceIdeal := by
  intro m ρ m' ρ' _ hagree
  refine ⟨fun c => normed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => added (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v13_eq, Cert.ReferenceIdeal.RefValue.out_eq,
      (hagree c).1, (hagree c).2.1, (hagree c).2.2]
  · rw [Cert.ReferenceIdeal.Read.val_main_v0_eq, Cert.ReferenceIdeal.RefValue.h_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
